-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x512 : Shape := ⟨3, ![16, 64, 512]⟩
abbrev S128x128 : Shape := ⟨2, ![128, 128]⟩
abbrev S128 : Shape := ⟨1, ![128]⟩
abbrev S_ : Shape := ⟨0, ![]⟩

class Facts : Prop where
  bcast_S_S16x64x512 : S_.BroadcastsInDim S16x64x512 (![] : Fin 0 → Fin S16x64x512.rank)
  reducesTo_S16x64x512_S_d0_1_2 : S16x64x512.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x64x512 .f32) (main_arg1 : FVec F S128x128 .f32) (main_arg2 : FVec F S128 .f32) (main_arg3 : FVec F S128x128 .f32) (main_arg4 : FVec F S128 .f32) : IVec S_ 1 :=
  let main_v0 : FVec F S16x64x512 .f32 := Host.absf main_arg0
  let main_cst : FVec F S_ .f32 := constant S_ .f32 0x7F800000#32
  let main_v1 : FVec F S16x64x512 .f32 := broadcastInDim S16x64x512 ![] bcast_S_S16x64x512 main_cst
  let main_v2 : IVec S16x64x512 1 := cmpf .olt main_v0 main_v1
  let main_c : IVec S_ 1 := constantI S_ 1 1#1
  let main_v3 : IVec S_ 1 := (fun x v => Host.reduce IntOp.andi x v reducesTo_S16x64x512_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S16x64x512 : Shape := ⟨3, ![16, 64, 512]⟩
abbrev S128x128 : Shape := ⟨2, ![128, 128]⟩
abbrev S128 : Shape := ⟨1, ![128]⟩
abbrev S16x256x128 : Shape := ⟨3, ![16, 256, 128]⟩
abbrev S16x64x128 : Shape := ⟨3, ![16, 64, 128]⟩
abbrev S1x256x128 : Shape := ⟨3, ![1, 256, 128]⟩
abbrev S1x64x128 : Shape := ⟨3, ![1, 64, 128]⟩
abbrev S256x128 : Shape := ⟨2, ![256, 128]⟩
abbrev S1x128 : Shape := ⟨2, ![1, 128]⟩
abbrev S64x128 : Shape := ⟨2, ![64, 128]⟩

abbrev nBuf : Space → Nat
  | .hbm => 7
  | .vmem => 8
  | .smem => 0
  | _ => 0

abbrev bufTy : (tb : Table) → Fin (tcTables nBuf tb) → BufTy
  | .hbm, ⟨0, _⟩ => ⟨S16x64x512, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S16x256x128, .f32⟩
  | .hbm, ⟨6, _⟩ => ⟨S16x64x128, .f32⟩
  | .local _ .vmem, ⟨0, _⟩ => ⟨S1x256x128, .f32⟩
  | .local _ .vmem, ⟨1, _⟩ => ⟨S1x256x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S1x64x128, .f32⟩
  | .local _ .vmem, ⟨7, _⟩ => ⟨S1x64x128, .f32⟩
  | _, _ => ⟨S16x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x64x512_S16x256x128 : S16x64x512.ShapeCasts S16x256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  reduces_S256x128_S128 : S256x128.Reduces [0] S128
  shapeCasts_S1x128_S1x128 : S1x128.ShapeCasts S1x128
  broadcasts_S1x128_S64x128 : S1x128.Broadcasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S16x256x128.size a
  hwx0_0 : ∀ i : grid0.Coords, EltTy.bits .f32 = 32 ∨ (Rect.block (s := S16x256x128) S1x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x128.size a ≤ S16x64x128.size a
  hwx0_5 : ∀ i : grid0.Coords, EltTy.bits .f32 = 32 ∨ (Rect.block (s := S16x64x128) S1x64x128.size (cc0_transform_5 i) (hinb0_5 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x512 : Shape := ⟨3, ![16, 64, 512]⟩
abbrev S128x128 : Shape := ⟨2, ![128, 128]⟩
abbrev S128 : Shape := ⟨1, ![128]⟩
abbrev S16x64x1x512 : Shape := ⟨4, ![16, 64, 1, 512]⟩
abbrev S16x64x64x512 : Shape := ⟨4, ![16, 64, 64, 512]⟩
abbrev S16x1x64x512 : Shape := ⟨4, ![16, 1, 64, 512]⟩
abbrev S16x64x64x1024 : Shape := ⟨4, ![16, 64, 64, 1024]⟩
abbrev S524288x128 : Shape := ⟨2, ![524288, 128]⟩
abbrev S1x128 : Shape := ⟨2, ![1, 128]⟩
abbrev S_ : Shape := ⟨0, ![]⟩
abbrev S16x64x512x128 : Shape := ⟨4, ![16, 64, 512, 128]⟩
abbrev S16x64x128 : Shape := ⟨3, ![16, 64, 128]⟩

abbrev nBuf : Space → Nat
  | .hbm => 25
  | .vmem => 0
  | .smem => 0
  | _ => 0

abbrev bufTy : (tb : Table) → Fin (tcTables nBuf tb) → BufTy
  | .hbm, ⟨0, _⟩ => ⟨S16x64x512, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S16x64x1x512, .f32⟩
  | .hbm, ⟨6, _⟩ => ⟨S16x64x64x512, .f32⟩
  | .hbm, ⟨7, _⟩ => ⟨S16x1x64x512, .f32⟩
  | .hbm, ⟨8, _⟩ => ⟨S16x64x64x512, .f32⟩
  | .hbm, ⟨9, _⟩ => ⟨S16x64x64x1024, .f32⟩
  | .hbm, ⟨10, _⟩ => ⟨S524288x128, .f32⟩
  | .hbm, ⟨11, _⟩ => ⟨S524288x128, .f32⟩
  | .hbm, ⟨12, _⟩ => ⟨S1x128, .f32⟩
  | .hbm, ⟨13, _⟩ => ⟨S524288x128, .f32⟩
  | .hbm, ⟨14, _⟩ => ⟨S524288x128, .f32⟩
  | .hbm, ⟨15, _⟩ => ⟨S_, .f32⟩
  | .hbm, ⟨16, _⟩ => ⟨S524288x128, .f32⟩
  | .hbm, ⟨17, _⟩ => ⟨S524288x128, .f32⟩
  | .hbm, ⟨18, _⟩ => ⟨S524288x128, .f32⟩
  | .hbm, ⟨19, _⟩ => ⟨S1x128, .f32⟩
  | .hbm, ⟨20, _⟩ => ⟨S524288x128, .f32⟩
  | .hbm, ⟨21, _⟩ => ⟨S524288x128, .f32⟩
  | .hbm, ⟨22, _⟩ => ⟨S16x64x512x128, .f32⟩
  | .hbm, ⟨23, _⟩ => ⟨S_, .f32⟩
  | .hbm, ⟨24, _⟩ => ⟨S16x64x128, .f32⟩
  | _, _ => ⟨S16x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S16x64x512_S16x64x1x512_0_1_3 : S16x64x512.BroadcastsInDim S16x64x1x512 (![0, 1, 3] : Fin 3 → Fin S16x64x1x512.rank)
  bcast_S16x64x1x512_S16x64x64x512_0_1_2_3 : S16x64x1x512.BroadcastsInDim S16x64x64x512 (![0, 1, 2, 3] : Fin 4 → Fin S16x64x64x512.rank)
  bcast_S16x64x512_S16x1x64x512_0_2_3 : S16x64x512.BroadcastsInDim S16x1x64x512 (![0, 2, 3] : Fin 3 → Fin S16x1x64x512.rank)
  bcast_S16x1x64x512_S16x64x64x512_0_1_2_3 : S16x1x64x512.BroadcastsInDim S16x64x64x512 (![0, 1, 2, 3] : Fin 4 → Fin S16x64x64x512.rank)
  concatenates_S16x64x64x512_S16x64x64x512_S16x64x64x1024_d3 : Shape.Concatenates [S16x64x64x512, S16x64x64x512] S16x64x64x1024 3
  shapeCasts_S16x64x64x1024_S524288x128 : S16x64x64x1024.ShapeCasts S524288x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  shapeCasts_S524288x128_S16x64x512x128 : S524288x128.ShapeCasts S16x64x512x128
  reducesTo_S16x64x512x128_S16x64x128_d2 : S16x64x512x128.ReducesTo [2] S16x64x128
  h_S_ : 0 < S_.numel
  dot_S524288x128_S128x128_S524288x128_1_0_0_1_n_n_wf : DotDims.WF S524288x128 S128x128 S524288x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibLayout.lean ====
import proofs.«161589_j34351148434013_1_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.LibDense.lean ====
import proofs.«161589_j34351148434013_1_alg».proof.Proof.LibDenseDefs
import proofs.«161589_j34351148434013_1_alg».proof.Proof.LibContract
import proofs.«161589_j34351148434013_1_alg».proof.Proof.LibLayout

/-!
# Dense layers on rows of extended reals, and the two spellings a program has for them

The dense layer `lin x w b = x · w + b` acts row by row: an entry of row `r` depends on row `r` of `x` only (`lin_rows`),
so the same definition at a block of rows and at the whole array is one function. The host's
`dot_general(x, w) + broadcast(b)` and a kernel's `matmul(bf16 x, bf16 w, 0) + broadcast(shape_cast b)` are both `lin x w b`
on the extended reals, where a change of float format is the identity.
-/

noncomputable section

namespace Cert.LibDense

open Idealize.ShloMosaic Idealize.ShloMosaic.ValueIdx

/-- An entry of row `r` of `x · w + b` is a function of row `r` of `x`, column `q` of `w` and `b[q]`. -/
theorem lin_rows {M M' K N : Nat} (x : Mat M K) (x' : Mat M' K) (w w' : Mat K N) (b b' : Row N) (r : Fin M) (r' : Fin M')
    (q : Fin N) (hx : ∀ k : Fin K, x (ix2 r k) = x' (ix2 r' k)) (hw : ∀ k : Fin K, w (ix2 k q) = w' (ix2 k q))
    (hb : b (ix1 q) = b' (ix1 q)) : lin x w b (ix2 r q) = lin x' w' b' (ix2 r' q) := by
  rw [lin_apply, lin_apply, hb]
  congr 1
  exact Finset.sum_congr rfl fun k _ => by rw [hx k, hw k]

/-- Row `r` of the join is row `r` of each part. -/
theorem cat_rows {M M' A B : Nat} (s : Mat M A) (d : Mat M B) (s' : Mat M' A) (d' : Mat M' B) (r : Fin M) (r' : Fin M')
    (hs : ∀ k : Fin A, s (ix2 r k) = s' (ix2 r' k)) (hd : ∀ k : Fin B, d (ix2 r k) = d' (ix2 r' k)) (k : Fin (A + B)) :
    cat s d (ix2 r k) = cat s' d' (ix2 r' k) := by
  by_cases h : k.val < A
  · have e : cat s d (ix2 r k) = s (ix2 r ⟨k.val, h⟩) := dif_pos h
    have e' : cat s' d' (ix2 r' k) = s' (ix2 r' ⟨k.val, h⟩) := dif_pos h
    rw [e, e']
    exact hs _
  · have e : cat s d (ix2 r k) = d (ix2 r ⟨k.val - A, by have := k.isLt; omega⟩) := dif_neg h
    have e' : cat s' d' (ix2 r' k) = d' (ix2 r' ⟨k.val - A, by have := k.isLt; omega⟩) := dif_neg h
    rw [e, e']
    exact hd _

/-! ## The printed layer is `lin` -/

/-- The host's `dot_general(x, w) + broadcast(b)` is `lin x w b`. -/
theorem hostLin_eq (M K N : Nat) (prec : Option ContractPrecision) (h₁ : (⟨1, ![N]⟩ : Shape).BroadcastsInDim ⟨2, ![1, N]⟩ ![1])
    (h₂ : (⟨2, ![1, N]⟩ : Shape).BroadcastsInDim ⟨2, ![M, N]⟩ ![0, 1])
    (x : FVec Ideal (⟨2, ![M, K]⟩ : Shape) .f32) (w : FVec Ideal (⟨2, ![K, N]⟩ : Shape) .f32) (b : FVec Ideal (⟨1, ![N]⟩ : Shape) .f32) :
    addf (Host.dotGeneral (DotDims.plain M K N) prec x w)
        (broadcastInDim ⟨2, ![M, N]⟩ ![0, 1] h₂ (broadcastInDim ⟨2, ![1, N]⟩ ![1] h₁ b))
      = lin x w b := by
  funext i
  obtain ⟨p, q, rfl⟩ : ∃ (p : Fin M) (q : Fin N), i = ix2 p q := ⟨i 0, i 1, eq_ix2 i⟩
  refine (addf_apply _ _ _).trans ?_
  rw [dotGeneral_plain_apply, hostBias_apply, lin_apply]

/-- A kernel's `matmul(bf16 x, bf16 w, 0) + broadcast(shape_cast b)` is `lin x w b`: at the extended reals the change of
    format is the identity. -/
theorem kernLin_eq (M K N : Nat) (prec : Option ContractPrecision) (hc : (⟨1, ![N]⟩ : Shape).ShapeCasts ⟨2, ![1, N]⟩)
    (hb : (⟨2, ![1, N]⟩ : Shape).Broadcasts ⟨2, ![M, N]⟩) (ht : FTy.bf16.bits < FTy.f32.bits)
    (x : FVec Ideal (⟨2, ![M, K]⟩ : Shape) .f32) (w : FVec Ideal (⟨2, ![K, N]⟩ : Shape) .f32) (b : FVec Ideal (⟨1, ![N]⟩ : Shape) .f32) :
    addf (matmul (DotDims.plain M K N) prec (truncf .bf16 x ht) (truncf .bf16 w ht)
          (constant (F := Ideal) (⟨2, ![M, N]⟩ : Shape) .f32 0x00000000#32))
        (broadcastTo ⟨2, ![M, N]⟩ (shapeCast ⟨2, ![1, N]⟩ b hc) hb)
      = lin x w b := by
  funext i
  obtain ⟨p, q, rfl⟩ : ∃ (p : Fin M) (q : Fin N), i = ix2 p q := ⟨i 0, i 1, eq_ix2 i⟩
  refine (addf_apply _ _ _).trans ?_
  rw [matmul_plain_zero_apply, kernBias_apply, lin_apply]
  rfl

end Cert.LibDense

end
-- ==== Proof.LibFoldMax.lean ====
import Mathlib.Data.Finset.Fold

/-!
# A maximum over a finite family depends on the family's range only

For a linear order, the fold of `max` from a start `e` over a finite family is monotone in the family's range: if every
member of one family is below some member of another, so is its maximum (`foldMax_le_of_range`); two families with the
same range have the same maximum (`foldMax_eq_of_range`). The families may be indexed by different types, so this is
what identifies a reduction over an axis with a reduction over another axis that repeats or re-orders the same values.
Only idempotence, commutativity and associativity of `max` are behind it: on the extended reals it needs no finiteness.
-/

namespace Cert.LibFoldMax

/-- If every member of the family `f` over `s` is below some member of the family `g` over `t`, then the maximum of `f` from
    `e` is below the maximum of `g` from `e`. -/
theorem foldMax_le_of_range {A B β : Type} [LinearOrder β] (s : Finset A) (t : Finset B) (e : β) (f : A → β) (g : B → β)
    (h : ∀ a ∈ s, ∃ b ∈ t, f a ≤ g b) : s.fold max e f ≤ t.fold max e g := by
  rw [Finset.fold_max_le]
  refine ⟨(Finset.le_fold_max _).mpr (Or.inl le_rfl), fun a ha => ?_⟩
  obtain ⟨b, hb, hle⟩ := h a ha
  exact (Finset.le_fold_max _).mpr (Or.inr ⟨b, hb, hle⟩)

/-- Two families with the same range have the same maximum from the same start. -/
theorem foldMax_eq_of_range {A B β : Type} [LinearOrder β] (s : Finset A) (t : Finset B) (e : β) (f : A → β) (g : B → β)
    (hfg : ∀ a ∈ s, ∃ b ∈ t, f a = g b) (hgf : ∀ b ∈ t, ∃ a ∈ s, g b = f a) : s.fold max e f = t.fold max e g :=
  le_antisymm (foldMax_le_of_range s t e f g fun a ha => by obtain ⟨b, hb, h⟩ := hfg a ha; exact ⟨b, hb, h.le⟩)
    (foldMax_le_of_range t s e g f fun b hb => by obtain ⟨a, ha, h⟩ := hgf b hb; exact ⟨a, ha, h.le⟩)

end Cert.LibFoldMax
-- ==== Proof.Spec.lean ====
import proofs.«161589_j34351148434013_1_alg».proof.Proof.LibDenseDefs
import proofs.«161589_j34351148434013_1_alg».proof.Proof.LibDense
import proofs.«161589_j34351148434013_1_alg».proof.Proof.LibFoldMax

/-!
# The per-batch maximum of a two-layer perceptron over 128-sample chunks: the specification

The input `x` is `[16, 64, 512]`: 16 batches of 64 channels of 512 samples. Cut every channel into four chunks of 128
consecutive samples; a batch then has `64 · 4 = 256` chunks, chunk `r` being chunk `r % 4` of channel `r / 4`.
Each chunk `v` goes through the perceptron `v ↦ relu(v · W1 + b1) · W2 + b2` (`mlpRow`), and the result at `(b, c, o)` is the
maximum, from `-∞`, over the 256 chunks of batch `b` of output `o`: it does not depend on the channel `c` (`G`).

Also here: the one order fact the two programs' equality rests on (`pairRows_max`). A maximum over a finite family depends
only on the family's range, and the reference takes its maximum over 512 rows that repeat these 256 chunks.
-/

noncomputable section

namespace Cert.ChunkMax

open Idealize.ShloMosaic Idealize.ShloMosaic.ValueIdx Cert.LibDense Cert.LibFoldMax

/-! ## The perceptron on one row -/

/-- `relu(v · W1 + b1) · W2 + b2` at output `o`, for one row `v` of 128 extended reals. -/
def mlpRow (v : Fin 128 → EReal) (W1 : Mat 128 128) (b1 : Row 128) (W2 : Mat 128 128) (b2 : Row 128) (o : Fin 128) : EReal :=
  (∑ j : Fin 128, relu ((∑ k : Fin 128, v k * W1 (ix2 k j)) + b1 (ix1 j)) * W2 (ix2 j o)) + b2 (ix1 o)

/-- The two dense layers with `relu` between them, on an array of any number of rows: entry `(r, o)` is the perceptron of
    row `r` at output `o`. -/
theorem mlp_apply {M : Nat} (X : Mat M 128) (W1 : Mat 128 128) (b1 : Row 128) (W2 : Mat 128 128) (b2 : Row 128)
    (r : Fin M) (o : Fin 128) :
    lin (reluM (lin X W1 b1)) W2 b2 (ix2 r o) = mlpRow (fun k => X (ix2 r k)) W1 b1 W2 b2 o := by
  rw [lin_apply]
  simp only [reluM, lin_apply, mlpRow]

/-! ## The chunks and the result -/

/-- The input: 16 batches of 64 channels of 512 samples. -/
abbrev Inp := (⟨3, ![16, 64, 512]⟩ : Shape).Idx → EReal
/-- The result: 16 batches of 64 channels of 128 outputs. -/
abbrev Out := (⟨3, ![16, 64, 128]⟩ : Shape).Idx → EReal

/-- Chunk `k` of channel `c` of batch `b`: samples `128 k … 128 k + 127`. -/
def chunk (x : Inp) (b : Fin 16) (c : Fin 64) (k : Fin 4) : Fin 128 → EReal :=
  fun j => x (ix3 b c ⟨128 * k.val + j.val, by have := k.isLt; have := j.isLt; omega⟩)

/-- Chunk `r` of the 256 chunks of batch `b`: chunk `r % 4` of channel `r / 4`. -/
def batchChunk (x : Inp) (b : Fin 16) (r : Fin 256) : Fin 128 → EReal :=
  chunk x b ⟨r.val / 4, by have := r.isLt; omega⟩ ⟨r.val % 4, Nat.mod_lt _ (by decide)⟩

/-- The start of every maximum: the f32 pattern of `-∞`, kept as its word (both programs use the same one). -/
abbrev negInf : EReal := Ideal.ofBits .f32 0xFF800000#32

/-- THE RESULT: at `(b, c, o)` the maximum over the 256 chunks of batch `b` of the perceptron's output `o`. -/
def G (x : Inp) (W1 : Mat 128 128) (b1 : Row 128) (W2 : Mat 128 128) (b2 : Row 128) : Out :=
  fun i => (Finset.univ : Finset (Fin 256)).fold max negInf (fun r => mlpRow (batchChunk x (i 0) r) W1 b1 W2 b2 (i 2))

theorem G_apply (x : Inp) (W1 : Mat 128 128) (b1 : Row 128) (W2 : Mat 128 128) (b2 : Row 128) (b : Fin 16) (c : Fin 64)
    (o : Fin 128) :
    G x W1 b1 W2 b2 (ix3 b c o)
      = (Finset.univ : Finset (Fin 256)).fold max negInf (fun r => mlpRow (batchChunk x b r) W1 b1 W2 b2 o) := rfl

/-! ## The 512 rows the reference forms for a pair (batch, channel)

For batch `b` and channel `c` the reference lays, for every channel `c'`, the 512 samples of `c` and then the 512 samples of
`c'` in a row of 1024, and cuts all of it into rows of 128: row `t = 8 c' + k` is chunk `k` of channel `c` when `k < 4` and
chunk `k - 4` of channel `c'` otherwise. -/

/-- Row `t` of the 512 rows of the pair `(b, c)`. -/
def pairRow (x : Inp) (b : Fin 16) (c : Fin 64) (t : Fin 512) : Fin 128 → EReal :=
  if h : t.val % 8 < 4 then chunk x b c ⟨t.val % 8, h⟩
  else chunk x b ⟨t.val / 8, by have := t.isLt; omega⟩ ⟨t.val % 8 - 4, by omega⟩

/-- A chunk depends on the values of its channel and chunk numbers only. -/
theorem chunk_congr (x : Inp) (b : Fin 16) {c c' : Fin 64} {k k' : Fin 4} (hc : c.val = c'.val) (hk : k.val = k'.val) :
    chunk x b c k = chunk x b c' k' := by
  rw [Fin.ext hc, Fin.ext hk]

/-- THE ORDER FACT: the 512 rows of a pair repeat the 256 chunks of its batch — the chunks of channel `c` sixty-four times
    over and every channel's chunks once — so the two maxima agree, whatever the channel `c`. -/
theorem pairRows_max (x : Inp) (W1 : Mat 128 128) (b1 : Row 128) (W2 : Mat 128 128) (b2 : Row 128) (b : Fin 16) (c : Fin 64)
    (o : Fin 128) :
    (Finset.univ : Finset (Fin 512)).fold max negInf (fun t => mlpRow (pairRow x b c t) W1 b1 W2 b2 o)
      = (Finset.univ : Finset (Fin 256)).fold max negInf (fun r => mlpRow (batchChunk x b r) W1 b1 W2 b2 o) := by
  have hc := c.isLt
  refine foldMax_eq_of_range _ _ _ _ _ (fun t _ => ?_) (fun r _ => ?_)
  · -- a row of the pair is a chunk of the batch
    have ht := t.isLt
    by_cases h : t.val % 8 < 4
    · refine ⟨⟨4 * c.val + t.val % 8, by omega⟩, Finset.mem_univ _, ?_⟩
      unfold pairRow batchChunk
      rw [dif_pos h]
      exact congrArg (fun v => mlpRow v W1 b1 W2 b2 o) (chunk_congr x b (by show c.val = (4 * c.val + t.val % 8) / 4; omega)
        (by show t.val % 8 = (4 * c.val + t.val % 8) % 4; omega))
    · refine ⟨⟨4 * (t.val / 8) + (t.val % 8 - 4), by omega⟩, Finset.mem_univ _, ?_⟩
      unfold pairRow batchChunk
      rw [dif_neg h]
      exact congrArg (fun v => mlpRow v W1 b1 W2 b2 o) (chunk_congr x b
        (by show t.val / 8 = (4 * (t.val / 8) + (t.val % 8 - 4)) / 4; omega)
        (by show t.val % 8 - 4 = (4 * (t.val / 8) + (t.val % 8 - 4)) % 4; omega))
  · -- a chunk of the batch is a row of the pair, in the second half of the row of its own channel
    have hr := r.isLt
    refine ⟨⟨8 * (r.val / 4) + 4 + r.val % 4, by omega⟩, Finset.mem_univ _, ?_⟩
    have h : ¬ (8 * (r.val / 4) + 4 + r.val % 4) % 8 < 4 := by omega
    unfold pairRow batchChunk
    rw [dif_neg h]
    exact congrArg (fun v => mlpRow v W1 b1 W2 b2 o) (chunk_congr x b
      (by show r.val / 4 = (8 * (r.val / 4) + 4 + r.val % 4) / 8; omega)
      (by show r.val % 4 = (8 * (r.val / 4) + 4 + r.val % 4) % 8 - 4; omega))

/-- `G` at an index given by its batch and output coordinates (the channel coordinate does not matter). -/
theorem G_of_coords (x : Inp) (W1 : Mat 128 128) (b1 : Row 128) (W2 : Mat 128 128) (b2 : Row 128)
    (i : (⟨3, ![16, 64, 128]⟩ : Shape).Idx) (b : Fin 16) (o : Fin 128) (hb : (i 0).val = b.val) (ho : (i 2).val = o.val) :
    G x W1 b1 W2 b2 i
      = (Finset.univ : Finset (Fin 256)).fold max negInf (fun r => mlpRow (batchChunk x b r) W1 b1 W2 b2 o) := by
  have e0 : i 0 = b := Fin.ext hb
  have e2 : i 2 = o := Fin.ext ho
  unfold G
  rw [e0, e2]

end Cert.ChunkMax

end
-- ==== Proof.KernelBody.lean ====
import proofs.«161589_j34351148434013_1_alg».proof.Proof.Gen.KernelIdeal.Skeleton
import proofs.«161589_j34351148434013_1_alg».proof.Proof.LibDense
import proofs.«161589_j34351148434013_1_alg».proof.Proof.Spec
import Idealize.ShloMosaic.Lib.ValueLayout
import Idealize.ShloMosaic.Lib.Pipeline.Value
import Idealize.ShloMosaic.PureOps.Ideal.Laws

/-!
# The kernel's body at an entry

At a grid point the body holds one batch as a `[1, 256, 128]` block `X` (row `r` is a chunk of 128 samples). It computes
`relu(X · W1 + b1) · W2 + b2` on the 256 rows (the two contractions into zero, each with its bias row broadcast down the
rows; the changes of float format are the identity on the extended reals), takes the maximum of every column from `-∞`,
and lays that one row of 128 maxima down 64 times. So entry `(0, c, o)` of what it stores is the maximum over the 256 rows
`r` of the perceptron of row `r` at output `o`, whatever `c` is.
-/

noncomputable section

namespace Cert.ChunkMax

open Idealize.ShloMosaic Idealize.ShloMosaic.ValueIdx Cert.LibDense

/-- The printed contraction `[256, 128] × [128, 128]` is the plain one. -/
theorem kernel_dot_eq :
    Cert.KernelIdeal.dot_S256x128_S128x128_S256x128_1_0_0_1_n_n = DotDims.plain 256 128 128 := rfl

/-- In the column reduction of a `[256, 128]` array, the source index over column `o` with row coordinate `r` is `(r, o)`. -/
theorem lift_col (hr : (⟨2, ![256, 128]⟩ : Shape).Reduces [0] ⟨1, ![128]⟩) (o : Fin 128)
    (r : Fin ((⟨2, ![256, 128]⟩ : Shape).size 0)) :
    hr.lift (ix1 o) r = ix2 (n0 := 256) (n1 := 128) ⟨r.val, r.isLt⟩ o := by
  funext a
  apply Fin.ext
  show hr.liftVal (ix1 o) r.val a = _
  unfold Shape.Reduces.liftVal
  match a with
  | ⟨0, _⟩ => rfl
  | ⟨1, _⟩ => rfl

/-- The column maxima of a `[256, 128]` array `Y` from `-∞`, laid as a row `[1, 128]`, broadcast down 64 rows and given a
    leading unit axis: entry `(u, c, o)` is the maximum over the rows `r` of `Y[r, o]`. -/
theorem colMax_rows_apply (Y : FVec Ideal (⟨2, ![256, 128]⟩ : Shape) .f32)
    (hr : (⟨2, ![256, 128]⟩ : Shape).Reduces [0] ⟨1, ![128]⟩) (hφ : FKind.Formats .f32)
    (hacc : (0xFF800000#32 : BitVec 32) = FKind.maximumf.neutral .f32 hφ)
    (h1 : (⟨1, ![128]⟩ : Shape).ShapeCasts ⟨2, ![1, 128]⟩) (h2 : (⟨2, ![1, 128]⟩ : Shape).ShapeCasts ⟨2, ![1, 128]⟩)
    (hb : (⟨2, ![1, 128]⟩ : Shape).Broadcasts ⟨2, ![64, 128]⟩) (h3 : (⟨2, ![64, 128]⟩ : Shape).ShapeCasts ⟨3, ![1, 64, 128]⟩)
    (u : Fin 1) (c : Fin 64) (o : Fin 128) :
    shapeCast ⟨3, ![1, 64, 128]⟩ (broadcastTo ⟨2, ![64, 128]⟩ (shapeCast ⟨2, ![1, 128]⟩ (shapeCast ⟨2, ![1, 128]⟩
        (multiReduction .maximumf [0] ⟨1, ![128]⟩ Y 0xFF800000#32 hr hφ hacc) h1) h2) hb) h3 (ix3 u c o)
      = (Finset.univ : Finset (Fin 256)).fold max negInf (fun r => Y (ix2 r o)) := by
  rw [shapeCast_ab_1ab_apply, shapeCast_self, kernBias_apply, Ideal.multiReduction_maximumf_single]
  exact congrArg (fun f => Finset.fold max negInf f Finset.univ) (funext fun r => congrArg Y (lift_col hr o r))

/-- The two layers as a kernel spells them — each a contraction of bf16 operands into the zero splat plus the bias row
    broadcast down the rows, `max · 0` between them — are `relu(X · W1 + b1) · W2 + b2` on the extended reals. -/
theorem kernLayers_eq (D : DotDims (⟨2, ![256, 128]⟩ : Shape) ⟨2, ![128, 128]⟩ ⟨2, ![256, 128]⟩)
    (hD : D = DotDims.plain 256 128 128) (prec : Option ContractPrecision)
    (X : FVec Ideal (⟨2, ![256, 128]⟩ : Shape) .f32) (W1 W2 : FVec Ideal (⟨2, ![128, 128]⟩ : Shape) .f32)
    (b1 b2 : FVec Ideal (⟨1, ![128]⟩ : Shape) .f32) (ht : FTy.bf16.bits < FTy.f32.bits)
    (hc : (⟨1, ![128]⟩ : Shape).ShapeCasts ⟨2, ![1, 128]⟩) (hb : (⟨2, ![1, 128]⟩ : Shape).Broadcasts ⟨2, ![256, 128]⟩) :
    addf (matmul D prec
          (truncf .bf16 (maximumf
            (addf (matmul D prec (truncf .bf16 X ht) (truncf .bf16 W1 ht)
                (constant (F := Ideal) (⟨2, ![256, 128]⟩ : Shape) .f32 0x00000000#32))
              (broadcastTo ⟨2, ![256, 128]⟩ (shapeCast ⟨2, ![1, 128]⟩ b1 hc) hb))
            (broadcast (⟨2, ![256, 128]⟩ : Shape) (Scalar.ofBits (F := Ideal) .f32 0x00000000#32))) ht)
          (truncf .bf16 W2 ht) (constant (F := Ideal) (⟨2, ![256, 128]⟩ : Shape) .f32 0x00000000#32))
        (broadcastTo ⟨2, ![256, 128]⟩ (shapeCast ⟨2, ![1, 128]⟩ b2 hc) hb)
      = lin (reluM (lin X W1 b1)) W2 b2 := by
  subst hD
  rw [kernLin_eq 256 128 128 prec hc hb ht X W1 b1, kernRelu_eq, kernLin_eq 256 128 128 prec hc hb ht _ W2 b2]

open Cert.KernelIdeal Cert.KernelIdeal.Gen in
/-- THE BODY'S STORE at entry `(u, c, o)`: the maximum over the block's 256 rows of the perceptron of the row. -/
theorem pay_apply (X : Vec Ideal S1x256x128 .f32) (W1 W2 : Vec Ideal S128x128 .f32) (b1 b2 : Vec Ideal S128 .f32)
    (u : Fin 1) (c : Fin 64) (o : Fin 128) :
    k0_pay1 (F := Ideal) X W1 W2 b1 b2 (ix3 u c o)
      = (Finset.univ : Finset (Fin 256)).fold max negInf
          (fun r => mlpRow (fun k => X (ix3 (0 : Fin 1) r k)) W1 b1 W2 b2 o) := by
  unfold k0_pay1
  dsimp only
  refine (colMax_rows_apply _ _ _ _ _ _ _ _ u c o).trans ?_
  refine congrArg (fun f => Finset.fold max negInf f Finset.univ) (funext fun r => ?_)
  refine (congrFun (kernLayers_eq _ kernel_dot_eq _ _ W1 W2 b1 b2 _ _ _) (ix2 r o)).trans ?_
  rw [mlp_apply]
  exact congrArg (fun v => mlpRow v W1 b1 W2 b2 o) (funext fun k => shapeCast_1ab_ab_apply X _ r k)

end Cert.ChunkMax

end
-- ==== Proof.KernelValue.lean ====
import proofs.«161589_j34351148434013_1_alg».proof.Proof.Gen.KernelIdeal.Value
import proofs.«161589_j34351148434013_1_alg».proof.Proof.KernelBody
import proofs.«161589_j34351148434013_1_alg».proof.Proof.Spec
import Idealize.ShloMosaic.Lib.Pipeline.Value
import Idealize.ShloMosaic.Lib.StableHlo.Run

/-!
# The kernel's result array

The grid has 16 points, one per batch. Point `t` reads block `t` of the input re-laid as `[16, 256, 128]` — the host's
reshape puts sample `128 (r % 4) + k` of channel `r / 4` at `(r, k)`, so row `r` of the block is chunk `r` of batch `t` — and
the whole weight and bias arrays, and writes block `t` of the `[16, 64, 128]` result. By the body's value (`pay_apply`) that
block is block `t` of `G`; the 16 blocks tile the result, so the result array is `G` of the argument arrays.
-/

noncomputable section

namespace Cert.ChunkMax

open Cert.KernelIdeal Cert.KernelIdeal.Gen Idealize.ShloMosaic Idealize.ShloMosaic.ValueIdx Idealize.ShloMosaic.TcCoe
open Idealize.SL.Sem Cert.LibDense
open Idealize.ShloMosaic.Pipeline (Dat)

variable (m : (ℓ : Loc nD τ sig) → Buf (Elt Ideal) ℓ) (ρ : Dev nD → PrngReg)

/-! ## The argument arrays and the blocks, at their literal types -/

abbrev xin (c : Dev nD) : Inp := m ((c : Thread nD τ).loc main_arg0)
abbrev w1in (c : Dev nD) : Mat 128 128 := m ((c : Thread nD τ).loc main_arg1)
abbrev b1in (c : Dev nD) : Row 128 := m ((c : Thread nD τ).loc main_arg2)
abbrev w2in (c : Dev nD) : Mat 128 128 := m ((c : Thread nD τ).loc main_arg3)
abbrev b2in (c : Dev nD) : Row 128 := m ((c : Thread nD τ).loc main_arg4)

abbrev xblk (c : Dev nD) (t : Fin cfg0.N) : Vec Ideal S1x256x128 .f32 := iblk m c 0 t
abbrev w1blk (c : Dev nD) (t : Fin cfg0.N) : Vec Ideal S128x128 .f32 := iblk m c 1 t
abbrev b1blk (c : Dev nD) (t : Fin cfg0.N) : Vec Ideal S128 .f32 := iblk m c 2 t
abbrev w2blk (c : Dev nD) (t : Fin cfg0.N) : Vec Ideal S128x128 .f32 := iblk m c 3 t
abbrev b2blk (c : Dev nD) (t : Fin cfg0.N) : Vec Ideal S128 .f32 := iblk m c 4 t

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input block and the output block of point `t` are block `t` along the batch
    axis; every weight and bias block is the whole array. -/
theorem idx_facts : ∀ t : Fin cfg0.N, win0_0.index t (0 : Fin 3) = t.val ∧ win0_0.index t (1 : Fin 3) = 0
    ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-! ## The host's reshape before the region -/

/-- The region finds the input re-laid as `[16, 256, 128]`. -/
theorem V_main_v0 (c : Dev nD) :
    (V m c main_v0 : S16x256x128.Idx → EReal) = shapeCast S16x256x128 (xin m c) Facts₀.shapeCasts_S16x64x512_S16x256x128 := by
  dsimp only [Gen.V, Gen.hostOps0]
  after_results
  rfl

/-! ## The blocks at a point -/

/-- Row `r` of the input block of point `t` is chunk `r` of batch `t`. -/
theorem xblk_apply (c : Dev nD) (t : Fin cfg0.N) (r : Fin 256) (k : Fin 128) :
    xblk m c t (ix3 (0 : Fin 1) r k) = batchChunk (xin m c) ⟨t.val, t.isLt⟩ r k := by
  have ht : t.val < 16 := t.isLt
  have hr : r.val < 256 := r.isLt
  have hk : k.val < 128 := k.isLt
  obtain ⟨e0, e1, e2, -⟩ := idx_facts t
  show V m c main_v0 (((cfg0.win 0).blk t).view.emb (ix3 (0 : Fin 1) r k)) = _
  rw [V_main_v0]
  unfold batchChunk chunk
  refine shapeCast_apply (xin m c) _ _ _ ?_
  rw [Shape.rowMajor_val_three, Shape.rowMajor_val_three]
  show (t.val * 64 + r.val / 4) * 512 + (128 * (r.val % 4) + k.val)
    = ((win0_0.index t (0 : Fin 3) * 1 + 1 * 0) * 256 + (win0_0.index t (1 : Fin 3) * 256 + 1 * r.val)) * 128
      + (win0_0.index t (2 : Fin 3) * 128 + 1 * k.val)
  omega

/-- The first layer's weight block is the whole array. -/
theorem w1blk_eq (c : Dev nD) (t : Fin cfg0.N) : w1blk m c t = w1in m c := by
  obtain ⟨-, -, -, e0, e1, -⟩ := idx_facts t
  funext y
  show V m c main_arg1 (((cfg0.win 1).blk t).view.emb y) = _
  rw [V_main_arg1]
  refine congrArg (w1in m c) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first layer's bias block is the whole array. -/
theorem b1blk_eq (c : Dev nD) (t : Fin cfg0.N) : b1blk m c t = b1in m c := by
  obtain ⟨-, -, -, -, -, e0, -⟩ := idx_facts t
  funext y
  show V m c main_arg2 (((cfg0.win 2).blk t).view.emb y) = _
  rw [V_main_arg2]
  refine congrArg (b1in m c) (funext fun a => Fin.ext ?_)
  match a with
  | ⟨0, _⟩ => show win0_2.index t (0 : Fin 1) * 128 + 1 * (y 0).val = (y 0).val; omega

/-- The second layer's weight block is the whole array. -/
theorem w2blk_eq (c : Dev nD) (t : Fin cfg0.N) : w2blk m c t = w2in m c := by
  obtain ⟨-, -, -, -, -, -, e0, e1, -⟩ := idx_facts t
  funext y
  show V m c main_arg3 (((cfg0.win 3).blk t).view.emb y) = _
  rw [V_main_arg3]
  refine congrArg (w2in m c) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second layer's bias block is the whole array. -/
theorem b2blk_eq (c : Dev nD) (t : Fin cfg0.N) : b2blk m c t = b2in m c := by
  obtain ⟨-, -, -, -, -, -, -, -, e0, -⟩ := idx_facts t
  funext y
  show V m c main_arg4 (((cfg0.win 4).blk t).view.emb y) = _
  rw [V_main_arg4]
  refine congrArg (b2in m c) (funext fun a => Fin.ext ?_)
  match a with
  | ⟨0, _⟩ => show win0_4.index t (0 : Fin 1) * 128 + 1 * (y 0).val = (y 0).val; omega

/-- What the body stores at point `t`, at entry `(u, cc, o)`: the maximum over the 256 chunks of batch `t`. -/
theorem pay_at_point (c : Dev nD) (t : Fin cfg0.N) (u : Fin 1) (cc : Fin 64) (o : Fin 128) :
    k0_pay1 (F := Ideal) (xblk m c t) (w1blk m c t) (w2blk m c t) (b1blk m c t) (b2blk m c t) (ix3 u cc o)
      = (Finset.univ : Finset (Fin 256)).fold max negInf
          (fun r => mlpRow (batchChunk (xin m c) ⟨t.val, t.isLt⟩ r) (w1in m c) (b1in m c) (w2in m c) (b2in m c) o) := by
  rw [w1blk_eq, w2blk_eq, b1blk_eq, b2blk_eq]
  refine (pay_apply (xblk m c t) (w1in m c) (w2in m c) (b1in m c) (b2in m c) u cc o).trans ?_
  exact congrArg (fun f => Finset.fold max negInf f Finset.univ) (funext fun r =>
    congrArg (fun v => mlpRow v (w1in m c) (b1in m c) (w2in m c) (b2in m c) o) (funext fun k => xblk_apply m c t r k))

/-! ## From the blocks to the array -/

/-- WHAT POINT `t` WRITES BACK is block `t` of `G` of the argument arrays. -/
theorem flushed_eq (c : Dev nD) (t : Fin cfg0.N) :
    (dats m 0 c).flushed 5 t
      = ((cfg0.win 5).blk t).view.read (Elt Ideal) (G (xin m c) (w1in m c) (b1in m c) (w2in m c) (b2in m c)) := by
  have ht : t.val < 16 := t.isLt
  obtain ⟨-, -, -, -, -, -, -, -, -, e0, e1, e2⟩ := idx_facts t
  rw [Value.flushed5]
  unfold out0_5
  rw [View.canon_unit_zero hz3]
  simp only [View.ld_unit_zero (S := S1x256x128) hz3, View.ld_unit_zero (S := S128x128) hz2,
    View.ld_unit_zero (S := S128) hz1]
  funext y
  obtain ⟨u, cc, o, rfl⟩ : ∃ (u : Fin 1) (cc : Fin 64) (o : Fin 128), y = ix3 u cc o := ⟨y 0, y 1, y 2, eq_ix3 y⟩
  have hu : u.val = 0 := by omega
  show k0_pay1 (F := Ideal) (xblk m c t) (w1blk m c t) (w2blk m c t) (b1blk m c t) (b2blk m c t) (ix3 u cc o)
    = G (xin m c) (w1in m c) (b1in m c) (w2in m c) (b2in m c) (((cfg0.win 5).blk t).view.emb (ix3 u cc o))
  refine (pay_at_point m c t u cc o).trans (G_of_coords _ _ _ _ _ _ ⟨t.val, t.isLt⟩ o ?_ ?_).symm
  · show win0_5.index t (0 : Fin 3) * 1 + 1 * u.val = t.val
    omega
  · show win0_5.index t (2 : Fin 3) * 128 + 1 * o.val = o.val
    omega

/-- An index of the result is in point `t`'s block iff each coordinate is in the block's range on its axis. -/
theorem mem_blk5 (t : Fin cfg0.N) (i : S16x64x128.Idx) :
    i ∈ ((cfg0.win 5).blk t).view.set ↔ ∀ a : Fin 3, win0_5.index t a * S1x64x128.size a ≤ (i a).val
      ∧ (i a).val < win0_5.index t a * S1x64x128.size a + S1x64x128.size a := by
  show i ∈ ((View.whole main_v1).slice (win0_5.rect t)).set ↔ _
  rw [View.set_slice_whole, Rect.mem_set_unit]
  exact Iff.rfl

/-- Every index of the result lies in the block of the point of its batch. -/
theorem cover5 (i : S16x64x128.Idx) :
    ∃ t : Fin cfg0.N, (cfg0.win 5).flush t = true ∧ i ∈ ((cfg0.win 5).blk t).view.set := by
  have h0 : (i 0).val < 16 := (i 0).isLt
  have h1 : (i 1).val < 64 := (i 1).isLt
  have h2 : (i 2).val < 128 := (i 2).isLt
  obtain ⟨t, ht⟩ : ∃ t : Fin cfg0.N, t.val = (i 0).val := ⟨⟨(i 0).val, h0⟩, rfl⟩
  obtain ⟨-, -, -, -, -, -, -, -, -, e0, e1, e2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 128 ≤ (i 2).val ∧ (i 2).val < win0_5.index t (2 : Fin 3) * 128 + 128; omega

/-- THE RESULT ARRAY after the run is `G` of the argument arrays. -/
theorem final (c : Dev nD) :
    (dats m 0 c).arrAt 5 cfg0.N = G (xin m c) (w1in m c) (b1in m c) (w2in m c) (b2in m c) :=
  (dats m 0 c).arrAt_eq_of_cover 5 (G (xin m c) (w1in m c) (b1in m c) (w2in m c) (b2in m c))
    (fun t _ => flushed_eq m c t) cover5

/-- The kernel's run: the result array ends at `G` of the arguments, the arguments unchanged. -/
theorem kernel_run : θ_run defs (onTc (τ := τ) (main (F := Ideal))) ⟨m, fun _ => 0, ρ⟩ fun r => ∀ c : Dev nD,
      r.2.mem ((c : Thread nD τ).loc main_v1) = G (xin m c) (w1in m c) (b1in m c) (w2in m c) (b2in m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ChunkMax

end
-- ==== Proof.RefRows.lean ====
import proofs.«161589_j34351148434013_1_alg».proof.Proof.Gen.ReferenceIdeal.Read
import proofs.«161589_j34351148434013_1_alg».proof.Proof.Spec
import Idealize.ShloMosaic.Lib.Pipeline.Value

/-!
# The rows of the reference's pair array

The reference broadcasts the input to all pairs of channels `(c, c')`, joins the two copies along the sample axis, and
re-lays the `[16, 64, 64, 1024]` array as `[524288, 128]`. Row `(b · 64 + c) · 512 + t` of it is row `t` of the pair `(b, c)`
(`pairRow`): with `t = 8 c' + k`, chunk `k` of channel `c` when `k < 4`, chunk `k - 4` of channel `c'` otherwise.
-/

noncomputable section

namespace Cert.ChunkMax

open Cert.ReferenceIdeal Cert.ReferenceIdeal.Read Idealize.ShloMosaic Idealize.ShloMosaic.ValueIdx Cert.LibDense

/-! ## The rows -/

/-- Row `R = (b · 64 + c) · 512 + t` of the re-laid pair array is row `t` of the pair `(b, c)`. -/
theorem rows_apply (x : Inp) (b : Fin 16) (c : Fin 64) (t : Fin 512) (R : Fin 524288)
    (hR : R.val = (b.val * 64 + c.val) * 512 + t.val) (k : Fin 128) :
    val_main_v5 (F := Ideal) x (ix2 R k) = pairRow x b c t k := by
  have hb := b.isLt
  have hc := c.isLt
  have ht := t.isLt
  have hk := k.isLt
  rw [val_main_v5_apply]
  unfold val_main_v4 pairRow
  by_cases h : t.val % 8 < 4
  · -- the first 512 samples of the joined row: channel c itself
    rw [dif_pos h]
    refine (concatenate_pair_apply_left (t := S16x64x64x1024) (s₁ := S16x64x64x512) (s₂ := S16x64x64x512) (3 : Fin 4)
      (val_main_v1 (F := Ideal) x) (val_main_v3 (F := Ideal) x) _ (idx_main_v5 (ix2 R k)) (rfl : (4 : Nat) = 4)
      (ix4 b c (⟨t.val / 8, by omega⟩ : Fin 64) (⟨128 * (t.val % 8) + k.val, by omega⟩ : Fin 512)) ?_).trans ?_
    · intro a
      match a with
      | ⟨0, _⟩ => show b.val = (R.val * 128 + k.val) / 4194304; omega
      | ⟨1, _⟩ => show c.val = (R.val * 128 + k.val) / 65536 % 64; omega
      | ⟨2, _⟩ => show t.val / 8 = (R.val * 128 + k.val) / 1024 % 64; omega
      | ⟨3, _⟩ => show 128 * (t.val % 8) + k.val = (R.val * 128 + k.val) % 1024; omega
    · rw [val_main_v1_apply, val_main_v0_apply]
      unfold chunk
      refine congrArg x (funext fun a => Fin.ext ?_)
      match a with
      | ⟨0, _⟩ => rfl
      | ⟨1, _⟩ => rfl
      | ⟨2, _⟩ => rfl
  · -- the last 512 samples: the other channel of the pair
    rw [dif_neg h]
    refine (concatenate_pair_apply_right (t := S16x64x64x1024) (s₁ := S16x64x64x512) (s₂ := S16x64x64x512) (3 : Fin 4)
      (val_main_v1 (F := Ideal) x) (val_main_v3 (F := Ideal) x) _ (idx_main_v5 (ix2 R k)) (rfl : (4 : Nat) = 4) (rfl : (4 : Nat) = 4)
      (ix4 b c (⟨t.val / 8, by omega⟩ : Fin 64) (⟨128 * (t.val % 8 - 4) + k.val, by omega⟩ : Fin 512)) ?_ ?_).trans ?_
    · intro a ha
      match a, ha with
      | ⟨0, _⟩, _ => show b.val = (R.val * 128 + k.val) / 4194304; omega
      | ⟨1, _⟩, _ => show c.val = (R.val * 128 + k.val) / 65536 % 64; omega
      | ⟨2, _⟩, _ => show t.val / 8 = (R.val * 128 + k.val) / 1024 % 64; omega
      | ⟨3, _⟩, ha => exact absurd rfl ha
    · show 128 * (t.val % 8 - 4) + k.val + 512 = (R.val * 128 + k.val) % 1024
      omega
    · rw [val_main_v3_apply, val_main_v2_apply]
      unfold chunk
      refine congrArg x (funext fun a => Fin.ext ?_)
      match a with
      | ⟨0, _⟩ => rfl
      | ⟨1, _⟩ => rfl
      | ⟨2, _⟩ => rfl

end Cert.ChunkMax

end
-- ==== Proof.RefLayers.lean ====
import proofs.«161589_j34351148434013_1_alg».proof.Proof.Gen.ReferenceIdeal.Read
import proofs.«161589_j34351148434013_1_alg».proof.Proof.LibDense
import proofs.«161589_j34351148434013_1_alg».proof.Proof.Spec

/-!
# The reference's two dense layers

On the `[524288, 128]` pair array the reference computes `dot_general(·, W1) + b1`, `maximum(·, 0)`, `dot_general(·, W2) + b2`,
each bias broadcast to a row and down the rows: `relu(X · W1 + b1) · W2 + b2` on the extended reals.
-/

noncomputable section

namespace Cert.ChunkMax

open Cert.ReferenceIdeal Cert.ReferenceIdeal.Read Idealize.ShloMosaic Idealize.ShloMosaic.ValueIdx Cert.LibDense

/-- The printed contraction `[524288, 128] × [128, 128]` is the plain one. -/
theorem ref_dot_eq :
    Cert.ReferenceIdeal.dot_S524288x128_S128x128_S524288x128_1_0_0_1_n_n = DotDims.plain 524288 128 128 := rfl

/-! ## The two layers -/

/-- The two layers as the host spells them — each a `dot_general` plus the bias broadcast to a row and down the rows,
    `maximum(·, broadcast 0)` between them — are `relu(X · W1 + b1) · W2 + b2` on the extended reals. -/
theorem hostLayers_eq (M : Nat) (D : DotDims (⟨2, ![M, 128]⟩ : Shape) ⟨2, ![128, 128]⟩ ⟨2, ![M, 128]⟩)
    (hD : D = DotDims.plain M 128 128) (prec : Option ContractPrecision)
    (X : FVec Ideal (⟨2, ![M, 128]⟩ : Shape) .f32) (W1 W2 : FVec Ideal (⟨2, ![128, 128]⟩ : Shape) .f32)
    (b1 b2 : FVec Ideal (⟨1, ![128]⟩ : Shape) .f32)
    (h₁ : (⟨1, ![128]⟩ : Shape).BroadcastsInDim ⟨2, ![1, 128]⟩ ![1])
    (h₂ : (⟨2, ![1, 128]⟩ : Shape).BroadcastsInDim ⟨2, ![M, 128]⟩ ![0, 1])
    (h₀ : (⟨0, ![]⟩ : Shape).BroadcastsInDim ⟨2, ![M, 128]⟩ ![]) :
    addf (Host.dotGeneral D prec
          (maximumf
            (addf (Host.dotGeneral D prec X W1)
              (broadcastInDim ⟨2, ![M, 128]⟩ ![0, 1] h₂ (broadcastInDim ⟨2, ![1, 128]⟩ ![1] h₁ b1)))
            (broadcastInDim ⟨2, ![M, 128]⟩ ![] h₀ (constant (F := Ideal) (⟨0, ![]⟩ : Shape) .f32 0x00000000#32)))
          W2)
        (broadcastInDim ⟨2, ![M, 128]⟩ ![0, 1] h₂ (broadcastInDim ⟨2, ![1, 128]⟩ ![1] h₁ b2))
      = lin (reluM (lin X W1 b1)) W2 b2 := by
  subst hD
  rw [hostLin_eq M 128 128 prec h₁ h₂ X W1 b1, hostRelu_eq, hostLin_eq M 128 128 prec h₁ h₂ _ W2 b2]

/-- The array before the reference's last re-laying: the perceptron of every row of the pair array. -/
theorem layers_eq (x : Inp) (W1 : Mat 128 128) (b1 : Row 128) (W2 : Mat 128 128) (b2 : Row 128) :
    val_main_v14 (F := Ideal) x W1 b1 W2 b2 = lin (reluM (lin (val_main_v5 (F := Ideal) x) W1 b1)) W2 b2 := by
  unfold val_main_v14 val_main_v13 val_main_v12 val_main_v11 val_main_v10 val_main_call0_v0 val_main_call0_cst val_main_v9
    val_main_v8 val_main_v7 val_main_v6
  exact hostLayers_eq 524288 _ ref_dot_eq _ _ W1 W2 b1 b2 _ _ _

end Cert.ChunkMax

end
-- ==== Proof.RefValue.lean ====
import proofs.«161589_j34351148434013_1_alg».proof.Proof.RefRows
import proofs.«161589_j34351148434013_1_alg».proof.Proof.RefLayers
import Idealize.ShloMosaic.PureOps.Ideal.Laws

/-!
# The reference's result

After the two layers the reference re-lays the `[524288, 128]` array as `[16, 64, 512, 128]` and takes the maximum over the
axis of extent 512 from `-∞`. Entry `(b, c, o)` is therefore the maximum over the 512 rows of the pair `(b, c)` of the
perceptron's output `o`, which is the maximum over the 256 chunks of batch `b` (`pairRows_max`): `G`.
-/

noncomputable section

namespace Cert.ChunkMax

open Cert.ReferenceIdeal Cert.ReferenceIdeal.Read Idealize.ShloMosaic Idealize.ShloMosaic.ValueIdx Cert.LibDense

/-! ## The maximum over the 512 rows of a pair -/

/-- In the reduction of a `[16, 64, 512, 128]` array over its axis 2, the source index over `(b, c, o)` with coordinate `t`
    on that axis is `(b, c, t, o)`. -/
theorem lift_rows (hr : (⟨4, ![16, 64, 512, 128]⟩ : Shape).Reduces [2] ⟨3, ![16, 64, 128]⟩) (b : Fin 16) (c : Fin 64)
    (o : Fin 128) (t : Fin ((⟨4, ![16, 64, 512, 128]⟩ : Shape).size 2)) :
    hr.lift (ix3 b c o) t = ix4 (n0 := 16) (n1 := 64) (n2 := 512) (n3 := 128) b c ⟨t.val, t.isLt⟩ o := by
  funext a
  apply Fin.ext
  show hr.liftVal (ix3 b c o) t.val a = _
  unfold Shape.Reduces.liftVal
  match a with
  | ⟨0, _⟩ => rfl
  | ⟨1, _⟩ => rfl
  | ⟨2, _⟩ => rfl
  | ⟨3, _⟩ => rfl

/-- Entry `(b, c, t, o)` of the array the reference reduces: the perceptron of row `t` of the pair `(b, c)` at output `o`. -/
theorem pre_max_apply (x : Inp) (W1 : Mat 128 128) (b1 : Row 128) (W2 : Mat 128 128) (b2 : Row 128) (b : Fin 16) (c : Fin 64)
    (t : Fin 512) (o : Fin 128) :
    val_main_v15 (F := Ideal) x W1 b1 W2 b2 (ix4 b c t o) = mlpRow (pairRow x b c t) W1 b1 W2 b2 o := by
  have hb := b.isLt
  have hc := c.isLt
  have ht := t.isLt
  have ho := o.isLt
  rw [val_main_v15_apply, layers_eq]
  have e : idx_main_v15 (ix4 b c t o)
      = ix2 (n0 := 524288) (n1 := 128) ⟨(b.val * 64 + c.val) * 512 + t.val, by omega⟩ o := by
    funext a
    apply Fin.ext
    match a with
    | ⟨0, _⟩ => show (((b.val * 64 + c.val) * 512 + t.val) * 128 + o.val) / 128 = (b.val * 64 + c.val) * 512 + t.val; omega
    | ⟨1, _⟩ => show (((b.val * 64 + c.val) * 512 + t.val) * 128 + o.val) % 128 = o.val; omega
  rw [e, mlp_apply]
  exact congrArg (fun v => mlpRow v W1 b1 W2 b2 o) (funext fun k => rows_apply x b c t _ rfl k)

/-- The host's maximum over axis 2 of a `[16, 64, 512, 128]` array from the `-∞` word: entry `(b, c, o)` is the maximum over
    `t` of the entries `(b, c, t, o)`. -/
theorem hostMax_apply (Y : FVec Ideal (⟨4, ![16, 64, 512, 128]⟩ : Shape) .f32)
    (h' : (⟨4, ![16, 64, 512, 128]⟩ : Shape).ReducesTo [2] ⟨3, ![16, 64, 128]⟩) (hu : 0 < (⟨0, ![]⟩ : Shape).numel)
    (b : Fin 16) (c : Fin 64) (o : Fin 128) :
    Host.reduce FloatOps.maximumf Y (constant (F := Ideal) (⟨0, ![]⟩ : Shape) .f32 0xFF800000#32) h' hu (ix3 b c o)
      = (Finset.univ : Finset (Fin 512)).fold max negInf (fun t => Y (ix4 b c t o)) := by
  have hr : (⟨4, ![16, 64, 512, 128]⟩ : Shape).Reduces [2] ⟨3, ![16, 64, 128]⟩ := by decide
  rw [Host.reduce_eq_fold_single FloatOps.maximumf Y _ h' hr hu (ix3 b c o)]
  exact congrArg (fun f : Fin 512 → EReal => Finset.fold max negInf f Finset.univ)
    (funext fun t => congrArg Y (lift_rows hr b c o t))

/-- THE REFERENCE'S RESULT is `G` of its arguments. -/
theorem ref_eq (x : Inp) (W1 : Mat 128 128) (b1 : Row 128) (W2 : Mat 128 128) (b2 : Row 128) :
    val_main_v16 (F := Ideal) x W1 b1 W2 b2 = G x W1 b1 W2 b2 := by
  funext i
  obtain ⟨b, c, o, rfl⟩ : ∃ (b : Fin 16) (c : Fin 64) (o : Fin 128), i = ix3 b c o := ⟨i 0, i 1, i 2, eq_ix3 i⟩
  -- the maximum over the pair's 512 rows, then the order fact
  refine Eq.trans ?_ ((pairRows_max x W1 b1 W2 b2 b c o).trans (G_apply x W1 b1 W2 b2 b c o).symm)
  unfold val_main_v16
  refine (hostMax_apply _ _ _ b c o).trans ?_
  exact congrArg (fun f : Fin 512 → EReal => Finset.fold max negInf f Finset.univ)
    (funext fun t => pre_max_apply x W1 b1 W2 b2 b c t o)

end Cert.ChunkMax

end
-- ==== Proof.lean ====
/-
  A per-batch maximum of a two-layer perceptron, against the all-pairs reference that repeats its rows.

  The input is `x : [16, 64, 512]` (batch, channel, sample), the weights `W1, W2 : [128, 128]`, the biases `b1, b2 : [128]`.
  Cut every channel's 512 samples into four chunks of 128; write `P(v) = relu(v · W1 + b1) · W2 + b2` for a chunk `v`.

  The reference forms, for every batch `b` and every pair of channels `(c, c')`, the row of 1024 samples "channel `c` then
  channel `c'`", re-lays everything as rows of 128, applies `P` to each row, and for each `(b, c)` takes the maximum over
  the 512 rows that belong to `c` (all `c'`, eight rows each). Those 512 rows are the four chunks of `c` (sixty-four times)
  and the four chunks of every channel `c'` (once each): the 256 chunks of batch `b`. So the result at `(b, c, o)` is
  `G(b, o) = max over the 256 chunks v of batch b of P(v)[o]`, independent of `c` (Spec.lean: `G`, `pairRows_max`).

  The kernel computes exactly that: grid point `b` holds the 256 chunks of batch `b` as a `[256, 128]` block, applies the two
  layers (its bf16 casts are the identity on the extended reals, its contractions into zero are plain sums), takes the column
  maxima from `-∞` and writes them to all 64 rows of block `b` of the result (KernelBody.lean, KernelValue.lean).

  Both sides are the same sums in the same arrangement; the only law used between them is that a maximum over a finite
  family depends on the family's range alone (idempotence, commutativity and associativity of `max`), which holds on the
  extended reals without any finiteness: the precondition is never opened. The ideal pass rewrote nothing, so
  `preserves` is `True`. The three frames are the generated ones (the reference's is its generated run with the result
  dropped).
-/
import proofs.«161589_j34351148434013_1_alg».proof.Defs
import proofs.«161589_j34351148434013_1_alg».proof.Proof.Gen.Kernel
import proofs.«161589_j34351148434013_1_alg».proof.Proof.Gen.Kernel.Skeleton
import proofs.«161589_j34351148434013_1_alg».proof.Proof.Gen.Kernel.Launch
import proofs.«161589_j34351148434013_1_alg».proof.Proof.Gen.Kernel.Points
import proofs.«161589_j34351148434013_1_alg».proof.Proof.Gen.Kernel.Frame
import proofs.«161589_j34351148434013_1_alg».proof.Proof.Gen.KernelIdeal
import proofs.«161589_j34351148434013_1_alg».proof.Proof.Gen.KernelIdeal.Skeleton
import proofs.«161589_j34351148434013_1_alg».proof.Proof.Gen.KernelIdeal.Launch
import proofs.«161589_j34351148434013_1_alg».proof.Proof.Gen.KernelIdeal.Points
import proofs.«161589_j34351148434013_1_alg».proof.Proof.Gen.KernelIdeal.Frame
import proofs.«161589_j34351148434013_1_alg».proof.Proof.Gen.ReferenceIdeal
import proofs.«161589_j34351148434013_1_alg».proof.Proof.Gen.KernelIdeal.Value
import proofs.«161589_j34351148434013_1_alg».proof.Proof.Gen.ReferenceIdeal.Run
import proofs.«161589_j34351148434013_1_alg».proof.Proof.Gen.ReferenceIdeal.Read
import proofs.«161589_j34351148434013_1_alg».proof.Proof.Gen.Pre_finite_inputs
import proofs.«161589_j34351148434013_1_alg».proof.Proof.KernelValue
import proofs.«161589_j34351148434013_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments the kernel's result array ends at `G` of them (its 16 blocks each the
    column maxima of one batch's perceptron outputs) and the reference's at its reduce term, which is `G` of the same
    arguments (the 512 rows of a pair repeat the batch's 256 chunks). -/
theorem algebraic : Cert.algebraic_KernelIdeal_ReferenceIdeal := by
  intro m ρ m' ρ' _ hagree
  refine ⟨fun c => Cert.ChunkMax.G (Cert.ChunkMax.xin m c) (Cert.ChunkMax.w1in m c) (Cert.ChunkMax.b1in m c)
    (Cert.ChunkMax.w2in m c) (Cert.ChunkMax.b2in m c), Cert.ChunkMax.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ChunkMax.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
